-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : FVec F S64x256 .f32) (main_arg2 : FVec F S256 .f32) (main_arg3 : FVec F S256x64 .f32) (main_arg4 : FVec F S64 .f32) (main_arg5 : IVec S1600000 32) (main_arg6 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_v13 main_v16
-- ==== Kernel.lean ====
abbrev S100000x64 : Shape := ⟨2, ![100000, 64]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S2000x64 : Shape := ⟨2, ![2000, 64]⟩
abbrev S2000x256 : Shape := ⟨2, ![2000, 256]⟩
abbrev S1x256 : Shape := ⟨2, ![1, 256]⟩
abbrev S1x64 : Shape := ⟨2, ![1, 64]⟩

abbrev nBuf : Space → Nat
  | .hbm => 21
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S64x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x256, .f32⟩
  | .local _ .vmem, ⟨5, _⟩ => ⟨S256, .f32⟩
  | .local _ .vmem, ⟨6, _⟩ => ⟨S256x64, .f32⟩
  | .local _ .vmem, ⟨7, _⟩ => ⟨S64, .f32⟩
  | .local _ .vmem, ⟨8, _⟩ => ⟨S2000x64, .f32⟩
  | .local _ .vmem, ⟨9, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x256_S2000x256_1_0_0_1_n_n_wf : DotDims.WF S2000x64 S64x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x256 : Shape := ⟨2, ![100000, 256]⟩
abbrev S1x256 : Shape := ⟨2, ![1, 256]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S100000x64, .f32⟩
  | .hbm, ⟨22, _⟩ => ⟨S100000x64, .f32⟩
  | .hbm, ⟨23, _⟩ => ⟨S100000x64, .f32⟩
  | .hbm, ⟨24, _⟩ => ⟨S100000x256, .f32⟩
  | .hbm, ⟨25, _⟩ => ⟨S1x256, .f32⟩
  | .hbm, ⟨26, _⟩ => ⟨S100000x256, .f32⟩
  | .hbm, ⟨27, _⟩ => ⟨S100000x256, .f32⟩
  | .hbm, ⟨28, _⟩ => ⟨S_, .f32⟩
  | .hbm, ⟨29, _⟩ => ⟨S100000x256, .f32⟩
  | .hbm, ⟨30, _⟩ => ⟨S100000x256, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x256_S100000x256_1_0_0_1_n_n_wf : DotDims.WF S100000x64 S64x256 S100000x256 [1] [0] [0] [1] [] []
  dot_S100000x256_S256x64_S100000x64_1_0_0_1_n_n_wf : DotDims.WF S100000x256 S256x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.RowMlp.lean ====
/-
  The function both programs compute, stated once. A graph-isomorphism layer updates every node's feature row
  by a two-layer perceptron applied to the row `1 · x + s`, where `x` is the node's own row and `s` the sum of
  its in-neighbours' rows:

      out[r, j] = (∑ k, max ((∑ d, (1 · x[r, d] + s[r, d]) · W1[d, k]) + b1[k]) 0 · W2[k, j]) + b2[j].

  Row `r` of the result depends on row `r` of `x` and of `s` only. So the formula reads the same over any number
  of rows `n`, and a block of rows of the result is the formula applied to the same block of rows of `x` and
  `s`: cutting the rows into blocks changes nothing. The one and the zero are kept as the words the programs
  print; both sides print the same words, so their values are never needed.
-/
import Idealize.ShloMosaic.PureOps.Ideal
import Idealize.ShloMosaic.Lib.ValueIdx

noncomputable section

open scoped BigOperators

namespace Cert.RowMlp

open Idealize.ShloMosaic Idealize.ShloMosaic.ValueIdx

/-- The word `1.0` as an extended real. -/
abbrev one : Ideal .f32 := Ideal.ofBits .f32 0x3F800000#32
/-- The word `0.0` as an extended real. -/
abbrev zero : Ideal .f32 := Ideal.ofBits .f32 0x00000000#32

/-- Hidden unit `k` of row `r`: the rectified affine image of the row `1 · x + s`. -/
def hidden {n : Nat} (x s : FVec Ideal ⟨2, ![n, 64]⟩ .f32) (W1 : FVec Ideal ⟨2, ![64, 256]⟩ .f32)
    (b1 : FVec Ideal ⟨1, ![256]⟩ .f32) (r : Fin n) (k : Fin 256) : Ideal .f32 :=
  max ((∑ d : Fin 64, (one * x (ix2 r d) + s (ix2 r d)) * W1 (ix2 d k)) + b1 (ix1 k)) zero

/-- The layer's output over `n` rows, index by index. -/
def out {n : Nat} (x s : FVec Ideal ⟨2, ![n, 64]⟩ .f32) (W1 : FVec Ideal ⟨2, ![64, 256]⟩ .f32)
    (b1 : FVec Ideal ⟨1, ![256]⟩ .f32) (W2 : FVec Ideal ⟨2, ![256, 64]⟩ .f32) (b2 : FVec Ideal ⟨1, ![64]⟩ .f32) :
    FVec Ideal ⟨2, ![n, 64]⟩ .f32 :=
  fun i => (∑ k : Fin 256, hidden x s W1 b1 (i 0) k * W2 (ix2 k (i 1))) + b2 (ix1 (i 1))

/-- The output at coordinates. -/
theorem out_apply {n : Nat} (x s : FVec Ideal ⟨2, ![n, 64]⟩ .f32) (W1 : FVec Ideal ⟨2, ![64, 256]⟩ .f32)
    (b1 : FVec Ideal ⟨1, ![256]⟩ .f32) (W2 : FVec Ideal ⟨2, ![256, 64]⟩ .f32) (b2 : FVec Ideal ⟨1, ![64]⟩ .f32)
    (r : Fin n) (j : Fin 64) :
    out x s W1 b1 W2 b2 (ix2 r j) = (∑ k : Fin 256, hidden x s W1 b1 r k * W2 (ix2 k j)) + b2 (ix1 j) := rfl

/-- Rows decide rows: if two pairs of arrays agree on row `r` (possibly at different row numbers `r`, `r'` of
    arrays with different numbers of rows), the outputs agree there. This is what lets a block of rows stand
    for the same rows of the whole array. -/
theorem out_row {n n' : Nat} (x s : FVec Ideal ⟨2, ![n, 64]⟩ .f32) (x' s' : FVec Ideal ⟨2, ![n', 64]⟩ .f32)
    (W1 : FVec Ideal ⟨2, ![64, 256]⟩ .f32) (b1 : FVec Ideal ⟨1, ![256]⟩ .f32)
    (W2 : FVec Ideal ⟨2, ![256, 64]⟩ .f32) (b2 : FVec Ideal ⟨1, ![64]⟩ .f32)
    (r : Fin n) (r' : Fin n') (hx : ∀ d, x (ix2 r d) = x' (ix2 r' d)) (hs : ∀ d, s (ix2 r d) = s' (ix2 r' d))
    (j : Fin 64) :
    out x s W1 b1 W2 b2 (ix2 r j) = out x' s' W1 b1 W2 b2 (ix2 r' j) := by
  rw [out_apply, out_apply]
  have hh : ∀ k, hidden x s W1 b1 r k = hidden x' s' W1 b1 r' k := fun k => by
    unfold hidden
    simp only [hx, hs]
  simp only [hh]

/-- The same for an arbitrary pair of indices: the output at `i` is read off row `i 0` of `x` and `s`, the
    weights and biases, and column `i 1`, and off nothing else. -/
theorem out_congr {n n' : Nat} (x s : FVec Ideal ⟨2, ![n, 64]⟩ .f32) (x' s' : FVec Ideal ⟨2, ![n', 64]⟩ .f32)
    (W1 W1' : FVec Ideal ⟨2, ![64, 256]⟩ .f32) (b1 b1' : FVec Ideal ⟨1, ![256]⟩ .f32)
    (W2 W2' : FVec Ideal ⟨2, ![256, 64]⟩ .f32) (b2 b2' : FVec Ideal ⟨1, ![64]⟩ .f32)
    (i : (⟨2, ![n, 64]⟩ : Shape).Idx) (i' : (⟨2, ![n', 64]⟩ : Shape).Idx) (hc : (i 1 : Fin 64) = i' 1)
    (hx : ∀ d, x (ix2 (i 0) d) = x' (ix2 (i' 0) d)) (hs : ∀ d, s (ix2 (i 0) d) = s' (ix2 (i' 0) d))
    (hW1 : W1 = W1') (hb1 : b1 = b1') (hW2 : W2 = W2') (hb2 : b2 = b2') :
    out x s W1 b1 W2 b2 i = out x' s' W1' b1' W2' b2' i' := by
  subst hW1 hb1 hW2 hb2
  have hh : ∀ k, hidden x s W1 b1 (i 0) k = hidden x' s' W1 b1 (i' 0) k := fun k => by
    unfold hidden
    simp only [hx, hs]
  show (∑ k : Fin 256, hidden x s W1 b1 (i 0) k * W2 (ix2 k (i 1))) + b2 (ix1 (i 1))
    = (∑ k : Fin 256, hidden x' s' W1 b1 (i' 0) k * W2 (ix2 k (i' 1))) + b2 (ix1 (i' 1))
  simp only [hh, hc]

end Cert.RowMlp

end
-- ==== Proof.BodyIsRowMlp.lean ====
/-
  One grid point of the kernel computes the row perceptron of its blocks. The body loads a block of 2000 rows of
  `x` and of the neighbour sums `s`, the two weight matrices and the two bias vectors whole, and stores

      (relu ((1 · x + s) · W1 + b1)) · W2 + b2

  over the block. Over the extended reals a change of float format is the identity, a matrix product into a zero
  accumulator is the plain sum over the contracted axis, and a bias vector recast as one row and broadcast over
  the rows reads its own column. So the stored block is the perceptron of the loaded rows, index by index.
-/
import proofs.«161391_j14053132992699_1_alg».proof.Proof.Gen.KernelIdeal.Skeleton
import proofs.«161391_j14053132992699_1_alg».proof.Proof.RowMlp
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen
open Idealize.ShloMosaic Idealize.ShloMosaic.ValueIdx Idealize.ShloMosaic.Pipeline

/-! ## The two products' operand indices, axis by axis -/

theorem lhsA_0 (i : S2000x256.Idx) (q : dot_S2000x64_S64x256_S2000x256_1_0_0_1_n_n.contr.Idx) :
    (dot_S2000x64_S64x256_S2000x256_1_0_0_1_n_n.lhsIdx i q 0).val = (i 0).val := by
  unfold DotDims.lhsIdx
  rw [dif_neg (show ¬(0 : Fin S2000x64.rank) ∈ dot_S2000x64_S64x256_S2000x256_1_0_0_1_n_n.lhsBatch by decide), dif_pos (show (0 : Fin S2000x64.rank) ∈ dot_S2000x64_S64x256_S2000x256_1_0_0_1_n_n.lhsNonContracting by decide)]
  rfl
theorem lhsA_1 (i : S2000x256.Idx) (q : dot_S2000x64_S64x256_S2000x256_1_0_0_1_n_n.contr.Idx) :
    (dot_S2000x64_S64x256_S2000x256_1_0_0_1_n_n.lhsIdx i q 1).val = (q ⟨0, by decide⟩).val :=
  dot_S2000x64_S64x256_S2000x256_1_0_0_1_n_n.lhsIdx_val_of_single rfl i q
theorem rhsA_0 (i : S2000x256.Idx) (q : dot_S2000x64_S64x256_S2000x256_1_0_0_1_n_n.contr.Idx) :
    (dot_S2000x64_S64x256_S2000x256_1_0_0_1_n_n.rhsIdx i q 0).val = (q ⟨0, by decide⟩).val :=
  dot_S2000x64_S64x256_S2000x256_1_0_0_1_n_n.rhsIdx_val_of_single rfl i q
theorem rhsA_1 (i : S2000x256.Idx) (q : dot_S2000x64_S64x256_S2000x256_1_0_0_1_n_n.contr.Idx) :
    (dot_S2000x64_S64x256_S2000x256_1_0_0_1_n_n.rhsIdx i q 1).val = (i 1).val := by
  unfold DotDims.rhsIdx
  rw [dif_neg (show ¬(1 : Fin S64x256.rank) ∈ dot_S2000x64_S64x256_S2000x256_1_0_0_1_n_n.rhsBatch by decide), dif_pos (show (1 : Fin S64x256.rank) ∈ dot_S2000x64_S64x256_S2000x256_1_0_0_1_n_n.rhsNonContracting by decide)]
  rfl

theorem lhsB_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhsB_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhsB_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhsB_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-! ## The two products at an index -/

/-- The first matrix product into a zero accumulator, at `(p, c)`: the plain sum over the contracted axis. -/
theorem matmulA_apply (l : FVec Ideal S2000x64 .bf16) (r : FVec Ideal S64x256 .bf16) (p : Fin 2000) (c : Fin 256) :
    matmul dot_S2000x64_S64x256_S2000x256_1_0_0_1_n_n none l r (constant S2000x256 .f32 0x00000000#32) (ix2 p c)
      = ∑ d : Fin 64, l (ix2 p d) * r (ix2 d c) := by
  simp only [matmul]
  rw [Ideal.matmul_constant_zero_apply, ← Equiv.sum_comp (contrEquiv1 dot_S2000x64_S64x256_S2000x256_1_0_0_1_n_n 64 rfl rfl).symm]
  refine Finset.sum_congr rfl fun d _ => ?_
  have hk := contrEquiv1_symm_val dot_S2000x64_S64x256_S2000x256_1_0_0_1_n_n 64 rfl rfl d
  have el : dot_S2000x64_S64x256_S2000x256_1_0_0_1_n_n.lhsIdx (ix2 p c) ((contrEquiv1 dot_S2000x64_S64x256_S2000x256_1_0_0_1_n_n 64 rfl rfl).symm d) = ix2 p d := funext fun a => Fin.ext (by
    match a with
    | ⟨0, _⟩ => exact lhsA_0 _ _
    | ⟨1, _⟩ => exact (lhsA_1 _ _).trans hk)
  have er : dot_S2000x64_S64x256_S2000x256_1_0_0_1_n_n.rhsIdx (ix2 p c) ((contrEquiv1 dot_S2000x64_S64x256_S2000x256_1_0_0_1_n_n 64 rfl rfl).symm d) = ix2 d c := funext fun a => Fin.ext (by
    match a with
    | ⟨0, _⟩ => exact (rhsA_0 _ _).trans hk
    | ⟨1, _⟩ => exact rhsA_1 _ _)
  rw [el, er]

/-- The second matrix product into a zero accumulator, at `(p, c)`: the plain sum over the contracted axis. -/
theorem matmulB_apply (l : FVec Ideal S2000x256 .bf16) (r : FVec Ideal S256x64 .bf16) (p : Fin 2000) (c : Fin 64) :
    matmul dot_S2000x256_S256x64_S2000x64_1_0_0_1_n_n none l r (constant S2000x64 .f32 0x00000000#32) (ix2 p c)
      = ∑ k : Fin 256, l (ix2 p k) * r (ix2 k c) := by
  simp only [matmul]
  rw [Ideal.matmul_constant_zero_apply, ← Equiv.sum_comp (contrEquiv1 dot_S2000x256_S256x64_S2000x64_1_0_0_1_n_n 256 rfl rfl).symm]
  refine Finset.sum_congr rfl fun k _ => ?_
  have hk := contrEquiv1_symm_val dot_S2000x256_S256x64_S2000x64_1_0_0_1_n_n 256 rfl rfl k
  have el : dot_S2000x256_S256x64_S2000x64_1_0_0_1_n_n.lhsIdx (ix2 p c) ((contrEquiv1 dot_S2000x256_S256x64_S2000x64_1_0_0_1_n_n 256 rfl rfl).symm k) = ix2 p k := funext fun a => Fin.ext (by
    match a with
    | ⟨0, _⟩ => exact lhsB_0 _ _
    | ⟨1, _⟩ => exact (lhsB_1 _ _).trans hk)
  have er : dot_S2000x256_S256x64_S2000x64_1_0_0_1_n_n.rhsIdx (ix2 p c) ((contrEquiv1 dot_S2000x256_S256x64_S2000x64_1_0_0_1_n_n 256 rfl rfl).symm k) = ix2 k c := funext fun a => Fin.ext (by
    match a with
    | ⟨0, _⟩ => exact (rhsB_0 _ _).trans hk
    | ⟨1, _⟩ => exact rhsB_1 _ _)
  rw [el, er]

/-! ## The stored block -/

/-- What the body stores, from what it loads: the row perceptron over the block's 2000 rows. -/
theorem body_eq (v0 v3 : Vec Ideal S2000x64 .f32) (v7 : Vec Ideal S64x256 .f32) (v10 : Vec Ideal S256 .f32)
    (v17 : Vec Ideal S256x64 .f32) (v20 : Vec Ideal S64 .f32) :
    k0_pay1 (F := Ideal) v0 v3 v7 v10 v17 v20 = Cert.RowMlp.out v0 v3 v7 v10 v17 v20 := by
  funext i
  obtain ⟨p, q, rfl⟩ : ∃ (p : Fin 2000) (q : Fin 64), i = ix2 p q := ⟨i 0, i 1, eq_ix2 i⟩
  rw [Cert.RowMlp.out_apply]
  unfold k0_pay1
  rw [addf_apply, matmulB_apply, broadcastTo_1b_ab_apply, shapeCast_a_1a_apply]
  unfold Cert.RowMlp.hidden
  simp only [truncf_apply, maximumf_apply, addf_apply, mulf_apply, broadcast_apply, matmulA_apply,
    broadcastTo_1b_ab_apply, shapeCast_a_1a_apply, shapeCast_self]
  rfl

end Cert.KernelIdeal.BodyValue

end
-- ==== Proof.BlockReads.lean ====
/-
  Reading an array through the kernel's windows. At grid point `t` a row-blocked window (the node features, the
  neighbour sums, the result) holds rows `2000 t … 2000 t + 1999` of its array: entry `(p, d)` of the block is
  entry `(2000 t + p, d)` of the array, and the two row-blocked inputs sit on the same rows as the result. A
  window over a weight matrix or a bias vector has one block, the whole array, at every point. Each fact is
  stated for an arbitrary array `A` of the window's shape: it is a fact about where the window looks, not about
  what the array holds.
-/
import proofs.«161391_j14053132992699_1_alg».proof.Proof.Gen.KernelIdeal.Points
import Idealize.ShloMosaic.Lib.ValueIdx
import Idealize.ShloMosaic.Lib.Pipeline.Value

noncomputable section

namespace Cert.KernelIdeal.BlockReads

open Cert.KernelIdeal Cert.KernelIdeal.Gen
open Idealize.ShloMosaic Idealize.ShloMosaic.TcCoe Idealize.SL.Sem Idealize.ShloMosaic.ValueIdx

/-- The block indices, decided over the 50 points: the two row-blocked inputs move with the output, whose
    block index is the point itself; the weights and biases stay at block 0. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The first weight matrix's window reads the whole matrix at every point. -/
theorem read_w1 (t : Fin cfg0.N) (A : FVec Ideal S64x256 .f32) :
    ((cfg0.win 2).blk t).view.read (Elt Ideal) A = A := by
  obtain ⟨-, -, -, -, e20, e21, -⟩ := index_facts t
  funext y
  show A (((cfg0.win 2).blk t).view.emb y) = A y
  refine congrArg A ?_
  funext a; apply Fin.ext
  match a with
  | ⟨0, _⟩ => show win0_2.index t (0 : Fin 2) * 64 + 1 * (y 0).val = (y 0).val; omega
  | ⟨1, _⟩ => show win0_2.index t (1 : Fin 2) * 256 + 1 * (y 1).val = (y 1).val; omega

/-- The first bias vector's window reads the whole vector at every point. -/
theorem read_b1 (t : Fin cfg0.N) (A : FVec Ideal S256 .f32) :
    ((cfg0.win 3).blk t).view.read (Elt Ideal) A = A := by
  obtain ⟨-, -, -, -, -, -, e30, -⟩ := index_facts t
  funext y
  show A (((cfg0.win 3).blk t).view.emb y) = A y
  refine congrArg A ?_
  funext a; apply Fin.ext
  match a with
  | ⟨0, _⟩ => show win0_3.index t (0 : Fin 1) * 256 + 1 * (y 0).val = (y 0).val; omega

/-- The second weight matrix's window reads the whole matrix at every point. -/
theorem read_w2 (t : Fin cfg0.N) (A : FVec Ideal S256x64 .f32) :
    ((cfg0.win 4).blk t).view.read (Elt Ideal) A = A := by
  obtain ⟨-, -, -, -, -, -, -, e40, e41, -⟩ := index_facts t
  funext y
  show A (((cfg0.win 4).blk t).view.emb y) = A y
  refine congrArg A ?_
  funext a; apply Fin.ext
  match a with
  | ⟨0, _⟩ => show win0_4.index t (0 : Fin 2) * 256 + 1 * (y 0).val = (y 0).val; omega
  | ⟨1, _⟩ => show win0_4.index t (1 : Fin 2) * 64 + 1 * (y 1).val = (y 1).val; omega

/-- The second bias vector's window reads the whole vector at every point. -/
theorem read_b2 (t : Fin cfg0.N) (A : FVec Ideal S64 .f32) :
    ((cfg0.win 5).blk t).view.read (Elt Ideal) A = A := by
  obtain ⟨-, -, -, -, -, -, -, -, -, e50, -⟩ := index_facts t
  funext y
  show A (((cfg0.win 5).blk t).view.emb y) = A y
  refine congrArg A ?_
  funext a; apply Fin.ext
  match a with
  | ⟨0, _⟩ => show win0_5.index t (0 : Fin 1) * 64 + 1 * (y 0).val = (y 0).val; omega

/-- The result's block keeps the column: entry `(p, q)` of the block is on column `q` of the array. -/
theorem col_out (t : Fin cfg0.N) (j : ((cfg0.win 6).xblock (cfg0.grid.coords t)).Idx) :
    (j 1 : Fin 64) = (((cfg0.win 6).blk t).view.emb j) 1 := by
  obtain ⟨-, -, -, -, -, -, -, -, -, -, -, e61⟩ := index_facts t
  apply Fin.ext
  show (j 1).val = win0_6.index t (1 : Fin 2) * 64 + 1 * (j 1).val
  omega

/-- The node features' window: entry `(p, d)` of the block at point `t` is the array's entry on the row the result's block
    puts its own row `p` on, column `d`. -/
theorem read_row0 (t : Fin cfg0.N) (A : FVec Ideal S100000x64 .f32)
    (j : ((cfg0.win 6).xblock (cfg0.grid.coords t)).Idx) (d : Fin 64) :
    ((cfg0.win 0).blk t).view.read (Elt Ideal) A (ix2 (j 0) d)
      = A (ix2 ((((cfg0.win 6).blk t).view.emb j) 0) d) := by
  obtain ⟨e00, e01, e10, e11, -⟩ := index_facts t
  show A (((cfg0.win 0).blk t).view.emb (ix2 (j 0) d)) = A (ix2 ((((cfg0.win 6).blk t).view.emb j) 0) d)
  refine congrArg A ?_
  funext a; apply Fin.ext
  match a with
  | ⟨0, _⟩ => show win0_0.index t (0 : Fin 2) * 2000 + 1 * (j 0).val = win0_6.index t (0 : Fin 2) * 2000 + 1 * (j 0).val; omega
  | ⟨1, _⟩ => show win0_0.index t (1 : Fin 2) * 64 + 1 * d.val = d.val; omega

/-- The neighbour sums' window: entry `(p, d)` of the block at point `t` is the array's entry on the row the result's block
    puts its own row `p` on, column `d`. -/
theorem read_row1 (t : Fin cfg0.N) (A : FVec Ideal S100000x64 .f32)
    (j : ((cfg0.win 6).xblock (cfg0.grid.coords t)).Idx) (d : Fin 64) :
    ((cfg0.win 1).blk t).view.read (Elt Ideal) A (ix2 (j 0) d)
      = A (ix2 ((((cfg0.win 6).blk t).view.emb j) 0) d) := by
  obtain ⟨e00, e01, e10, e11, -⟩ := index_facts t
  show A (((cfg0.win 1).blk t).view.emb (ix2 (j 0) d)) = A (ix2 ((((cfg0.win 6).blk t).view.emb j) 0) d)
  refine congrArg A ?_
  funext a; apply Fin.ext
  match a with
  | ⟨0, _⟩ => show win0_1.index t (0 : Fin 2) * 2000 + 1 * (j 0).val = win0_6.index t (0 : Fin 2) * 2000 + 1 * (j 0).val; omega
  | ⟨1, _⟩ => show win0_1.index t (1 : Fin 2) * 64 + 1 * d.val = d.val; omega

end Cert.KernelIdeal.BlockReads

end
-- ==== Proof.RowBlocks.lean ====
/-
  From blocks of rows to the whole array. The grid has 50 points; point `t` reads rows `2000 t … 2000 t + 1999`
  of the node features `x` and of the neighbour sums `s`, reads the weights and biases whole, and writes the
  same 2000 rows of the result. Since a row of the perceptron's output depends only on the same row of `x` and
  `s`, what point `t` writes is block `t` of the perceptron of the WHOLE arrays; the 50 blocks tile the 100000
  rows, so after the run the result array is that one function. The neighbour sums are the array the host's
  scatter-add leaves before the kernel is entered; it is named here as one term of the arguments and never
  opened.
-/
import proofs.«161391_j14053132992699_1_alg».proof.Proof.Gen.KernelIdeal.Value
import proofs.«161391_j14053132992699_1_alg».proof.Proof.BodyIsRowMlp
import proofs.«161391_j14053132992699_1_alg».proof.Proof.BlockReads
import Idealize.ShloMosaic.Lib.StableHlo.Run

noncomputable section

open scoped BigOperators

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- Every one of the 50 row blocks is some point's. -/
theorem index_onto : ∀ q : Fin 50, ∃ t : Fin cfg0.N, win0_6.index t = ![q.val, 0] :=
  (by decide +kernel : ∀ q : Fin 50, ∃ t : Fin grid0.N, win0_6.index t = ![q.val, 0])

/-! ## The arrays as the kernel finds them -/

abbrev xArr (c : Dev nD) : FVec Ideal S100000x64 .f32 := V m c main_arg0
abbrev sArr (c : Dev nD) : FVec Ideal S100000x64 .f32 := V m c main_v9
abbrev w1Arr (c : Dev nD) : FVec Ideal S64x256 .f32 := V m c main_arg1
abbrev b1Arr (c : Dev nD) : FVec Ideal S256 .f32 := V m c main_arg2
abbrev w2Arr (c : Dev nD) : FVec Ideal S256x64 .f32 := V m c main_arg3
abbrev b2Arr (c : Dev nD) : FVec Ideal S64 .f32 := V m c main_arg4

/-- The perceptron of the whole arrays. -/
def whole (c : Dev nD) : FVec Ideal S100000x64 .f32 :=
  Cert.RowMlp.out (xArr m c) (sArr m c) (w1Arr m c) (b1Arr m c) (w2Arr m c) (b2Arr m c)

/-! ## What a point writes -/

/-- Window 0's block is the window's read of the node features. -/
theorem iblk0_eq (c : Dev nD) (t : Fin cfg0.N) :
    iblk m c 0 t = ((cfg0.win 0).blk t).view.read (Elt Ideal) (xArr m c) := by
  unfold iblk
  rfl
/-- Window 1's block is the window's read of the neighbour sums. -/
theorem iblk1_eq (c : Dev nD) (t : Fin cfg0.N) :
    iblk m c 1 t = ((cfg0.win 1).blk t).view.read (Elt Ideal) (sArr m c) := by
  unfold iblk
  rfl
/-- Window 2's block is the window's read of the first weight matrix. -/
theorem iblk2_eq (c : Dev nD) (t : Fin cfg0.N) :
    iblk m c 2 t = ((cfg0.win 2).blk t).view.read (Elt Ideal) (w1Arr m c) := by
  unfold iblk
  rfl
/-- Window 3's block is the window's read of the first bias vector. -/
theorem iblk3_eq (c : Dev nD) (t : Fin cfg0.N) :
    iblk m c 3 t = ((cfg0.win 3).blk t).view.read (Elt Ideal) (b1Arr m c) := by
  unfold iblk
  rfl
/-- Window 4's block is the window's read of the second weight matrix. -/
theorem iblk4_eq (c : Dev nD) (t : Fin cfg0.N) :
    iblk m c 4 t = ((cfg0.win 4).blk t).view.read (Elt Ideal) (w2Arr m c) := by
  unfold iblk
  rfl
/-- Window 5's block is the window's read of the second bias vector. -/
theorem iblk5_eq (c : Dev nD) (t : Fin cfg0.N) :
    iblk m c 5 t = ((cfg0.win 5).blk t).view.read (Elt Ideal) (b2Arr m c) := by
  unfold iblk
  rfl

/-- Point `t` writes back block `t` of the perceptron of the whole arrays: the body stores the perceptron of
    its blocks, the row-blocked inputs' blocks are the result block's rows of their arrays, and the weights'
    and biases' blocks are their arrays. -/
theorem flushed_eq (c : Dev nD) (t : Fin cfg0.N) :
    (dats m 0 c).flushed 6 t = ((cfg0.win 6).blk t).view.read (Elt Ideal) (whole m c) := by
  rw [Value.flushed6]
  unfold out0_6
  rw [View.canon_unit_zero zero2]
  simp only [View.ld_unit_zero (S := S2000x64) zero2, View.ld_unit_zero (S := S64x256) zero2,
    View.ld_unit_zero (S := S256) zero1, View.ld_unit_zero (S := S256x64) zero2, View.ld_unit_zero (S := S64) zero1]
  rw [BodyValue.body_eq, iblk0_eq, iblk1_eq, iblk2_eq, iblk3_eq, iblk4_eq, iblk5_eq,
    BlockReads.read_w1, BlockReads.read_b1, BlockReads.read_w2, BlockReads.read_b2]
  funext j
  exact Cert.RowMlp.out_congr
    (((cfg0.win 0).blk t).view.read (Elt Ideal) (xArr m c)) (((cfg0.win 1).blk t).view.read (Elt Ideal) (sArr m c))
    (xArr m c) (sArr m c) (w1Arr m c) (w1Arr m c) (b1Arr m c) (b1Arr m c) (w2Arr m c) (w2Arr m c) (b2Arr m c) (b2Arr m c)
    j (((cfg0.win 6).blk t).view.emb j) (BlockReads.col_out t j)
    (fun d => BlockReads.read_row0 t (xArr m c) j d) (fun d => BlockReads.read_row1 t (sArr m c) j d)
    rfl rfl rfl rfl

/-! ## The blocks tile the array -/

/-- An index of the result array is in point `t`'s block iff each coordinate is in the block's range. -/
theorem mem_blk (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v10).slice (win0_6.rect t)).set ↔ _
  rw [View.set_slice_whole, Rect.mem_set_unit]
  exact Iff.rfl

/-- Row `r` lies in block `r / 2000`: every index of the result array is written by some point. -/
theorem covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := index_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 64 ≤ (i 1).val ∧ (i 1).val < win0_6.index t (1 : Fin 2) * 64 + 64; omega

/-- After the run the result array is the perceptron of the whole arrays. -/
theorem final (c : Dev nD) : (dats m 0 c).arrAt 6 cfg0.N = whole m c :=
  (dats m 0 c).arrAt_eq_of_cover 6 (whole m c) (fun t _ => flushed_eq m c t) (covered)

/-! ## The arrays the kernel finds, in terms of the arguments -/

/-- The neighbour sums as the host computes them before the kernel: every edge's source row (negative sources
    counted from the end) gathered from `x` and added into the edge's destination row of a zero array. -/
def neigh (x0 : FVec Ideal S100000x64 .f32) (x5 x6 : IVec S1600000 32) : FVec Ideal S100000x64 .f32 :=
  Host.scatterAdd scatter_S100000x64_S1600000x1_S1600000x64_1_0_0_1 (broadcastInDim S100000x64 ![] bcast_S_S100000x64 (constant (F := Ideal) S_ .f32 0x00000000#32))
    (broadcastInDim S1600000x1 ![0] bcast_S1600000_S1600000x1_0 x6)
    (Host.gather gather_S100000x64_S1600000x1_S1600000x64_1_0_n_n_0_1_164 x0 (broadcastInDim S1600000x1 ![0] bcast_S1600000_S1600000x1_0
      (select (cmpi .slt x5 (broadcastInDim S1600000 ![] bcast_S_S1600000 (constantI S_ 32 0#32)))
        (addi x5 (broadcastInDim S1600000 ![] bcast_S_S1600000 (constantI S_ 32 100000#32))) x5)))

/-- The second row-blocked input is the host's scatter-add of the arguments. -/
theorem sArr_eq (c : Dev nD) :
    sArr m c = neigh (m ((c : Thread nD τ).loc main_arg0)) (m ((c : Thread nD τ).loc main_arg5)) (m ((c : Thread nD τ).loc main_arg6)) := by
  unfold neigh
  dsimp only [sArr, Gen.V, Gen.hostOps0]
  after_results

/-- The result in terms of the arguments alone. -/
theorem whole_eq (c : Dev nD) :
    whole m c = Cert.RowMlp.out (m ((c : Thread nD τ).loc main_arg0))
      (neigh (m ((c : Thread nD τ).loc main_arg0)) (m ((c : Thread nD τ).loc main_arg5)) (m ((c : Thread nD τ).loc main_arg6)))
      (m ((c : Thread nD τ).loc main_arg1)) (m ((c : Thread nD τ).loc main_arg2))
      (m ((c : Thread nD τ).loc main_arg3)) (m ((c : Thread nD τ).loc main_arg4)) := by
  unfold whole
  rw [sArr_eq]
  show Cert.RowMlp.out (V m c main_arg0) _ (V m c main_arg1) (V m c main_arg2) (V m c main_arg3) (V m c main_arg4) = _
  rw [V_main_arg0, V_main_arg1, V_main_arg2, V_main_arg3, V_main_arg4]

/-! ## The kernel's run, read -/

/-- Every weakly fair execution of the kernel's program ends with the result array at the perceptron of the
    arguments and the neighbour sums, the arguments unchanged. -/
theorem run : θ_run defs (onTc (τ := τ) (main (F := Ideal))) ⟨m, fun _ => 0, ρ⟩ fun r => ∀ c : Dev nD,
      r.2.mem ((c : Thread nD τ).loc main_v10) = Cert.RowMlp.out (m ((c : Thread nD τ).loc main_arg0))
          (neigh (m ((c : Thread nD τ).loc main_arg0)) (m ((c : Thread nD τ).loc main_arg5)) (m ((c : Thread nD τ).loc main_arg6)))
          (m ((c : Thread nD τ).loc main_arg1)) (m ((c : Thread nD τ).loc main_arg2))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1.trans (final m c)).trans (whole_eq m c), (h c).2⟩)
    (Value.run_blocks m ρ)

end Cert.KernelIdeal.ArrayValue

end
-- ==== Proof.RefIsRowMlp.lean ====
/-
  The reference computes the row perceptron. Its last stage is a sum of a matrix product and a broadcast bias;
  read at the index `(r, j)` and unfolded one operation at a time, it is

      (∑ k, max ((∑ d, (1 · x[r, d] + s[r, d]) · W1[d, k]) + b1[k]) 0 · W2[k, j]) + b2[j],

  where `s` is the array the reference's scatter-add leaves: the neighbour sums. That array is never opened
  here: whatever the gather and the scatter-add compute from the edge lists, the perceptron only reads it row
  by row. The index functions the stages compose are the coordinate pairs one expects: the left operand of a
  product at `(r, ·)` is row `r`, the right operand column `·`, and a bias broadcast over rows reads its own
  coordinate.
-/
import proofs.«161391_j14053132992699_1_alg».proof.Proof.Gen.ReferenceIdeal.Read
import proofs.«161391_j14053132992699_1_alg».proof.Proof.RowMlp

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The second product's left operand at output `(r, j)`, contraction `k`, is the hidden row `r` at `k`. -/
theorem lidx18 (r : Fin 100000) (j : Fin 64) (k : Fin 256) : lidx_main_v18 (ix2 r j) k = ix2 r k :=
  funext fun a => Fin.ext (by match a with | ⟨0, _⟩ => rfl | ⟨1, _⟩ => rfl)
/-- … and its right operand is `W2` at `(k, j)`. -/
theorem ridx18 (r : Fin 100000) (j : Fin 64) (k : Fin 256) : ridx_main_v18 (ix2 r j) k = ix2 k j :=
  funext fun a => Fin.ext (by match a with | ⟨0, _⟩ => rfl | ⟨1, _⟩ => rfl)
/-- The first product's left operand at hidden `(r, k)`, contraction `d`, is the input row `r` at `d`. -/
theorem lidx13 (r : Fin 100000) (k : Fin 256) (d : Fin 64) : lidx_main_v13 (ix2 r k) d = ix2 r d :=
  funext fun a => Fin.ext (by match a with | ⟨0, _⟩ => rfl | ⟨1, _⟩ => rfl)
/-- … and its right operand is `W1` at `(d, k)`. -/
theorem ridx13 (r : Fin 100000) (k : Fin 256) (d : Fin 64) : ridx_main_v13 (ix2 r k) d = ix2 d k :=
  funext fun a => Fin.ext (by match a with | ⟨0, _⟩ => rfl | ⟨1, _⟩ => rfl)
/-- The output bias, broadcast over rows, reads `b2` at the column. -/
theorem bidx20 (r : Fin 100000) (j : Fin 64) : idx_main_v19 (idx_main_v20 (ix2 r j)) = ix1 j :=
  funext fun a => Fin.ext (by match a with | ⟨0, _⟩ => rfl)
/-- The hidden bias, broadcast over rows, reads `b1` at the hidden unit. -/
theorem bidx15 (r : Fin 100000) (k : Fin 256) : idx_main_v14 (idx_main_v15 (ix2 r k)) = ix1 k :=
  funext fun a => Fin.ext (by match a with | ⟨0, _⟩ => rfl)

/-- The hidden stage of the reference at `(r, k)` is the perceptron's hidden unit `k` of row `r`. -/
theorem hidden_eq (x0 : FVec Ideal S100000x64 .f32) (x1 : FVec Ideal S64x256 .f32) (x2 : FVec Ideal S256 .f32)
    (x5 x6 : IVec S1600000 32) (r : Fin 100000) (k : Fin 256) :
    val_main_v17 (F := Ideal) x0 x1 x2 x5 x6 (ix2 r k)
      = Cert.RowMlp.hidden x0 (val_main_v9 (F := Ideal) x0 x5 x6) x1 x2 r k := by
  rw [val_main_v17_apply, val_main_v16_apply, val_main_v13_apply, val_main_v15_apply, val_main_v14_apply,
    val_main_call0_v0_apply, val_main_call0_cst_apply, bidx15]
  unfold Cert.RowMlp.hidden
  simp only [lidx13, ridx13, val_main_v12_apply, val_main_v11_apply, val_main_v10_apply, val_main_cst_1_apply]
  rfl

/-- The reference's result is the row perceptron of the arguments and the neighbour sums. -/
theorem result_eq (x0 : FVec Ideal S100000x64 .f32) (x1 : FVec Ideal S64x256 .f32) (x2 : FVec Ideal S256 .f32)
    (x3 : FVec Ideal S256x64 .f32) (x4 : FVec Ideal S64 .f32) (x5 x6 : IVec S1600000 32) :
    val_main_v21 (F := Ideal) x0 x1 x2 x3 x4 x5 x6
      = Cert.RowMlp.out x0 (val_main_v9 (F := Ideal) x0 x5 x6) x1 x2 x3 x4 := by
  funext i
  obtain ⟨r, j, rfl⟩ : ∃ (r : Fin 100000) (j : Fin 64), i = ix2 r j := ⟨i 0, i 1, eq_ix2 i⟩
  rw [Cert.RowMlp.out_apply, val_main_v21_apply, val_main_v18_apply, val_main_v20_apply, val_main_v19_apply, bidx20]
  simp only [lidx18, ridx18, hidden_eq]
  rfl

end Cert.ReferenceIdeal.RefValue

end
-- ==== Proof.lean ====
/-
  The certificate of a graph-isomorphism layer: a fused kernel against its plain reference.

  Both programs first form the neighbour sums `s` on the host, by the same gather of source rows and the same
  scatter-add into destination rows, operation for operation. The reference then applies a two-layer perceptron
  to `1 · x + s` over all 100000 rows at once; the kernel applies it to 50 blocks of 2000 rows, with both matrix
  products taken in a narrower float format into a zero accumulator. Over the extended reals the format change
  is the identity and the accumulator adds nothing, and a row of the perceptron's output depends only on the
  same row of `x` and `s`: so each block the kernel writes is the same rows of the reference's result, and the
  blocks tile the array. No law of arithmetic beyond that is used, and finiteness of the inputs is never needed:
  the two results are the same expression of the arguments, sum for sum and product for product.

  The three frames are the generated ones (the reference's is its generated run with the result dropped); the
  idealization rewrote nothing, so there is nothing to preserve.
-/
import proofs.«161391_j14053132992699_1_alg».proof.Defs
import proofs.«161391_j14053132992699_1_alg».proof.Proof.Gen.Kernel
import proofs.«161391_j14053132992699_1_alg».proof.Proof.Gen.Kernel.Skeleton
import proofs.«161391_j14053132992699_1_alg».proof.Proof.Gen.Kernel.Launch
import proofs.«161391_j14053132992699_1_alg».proof.Proof.Gen.Kernel.Points
import proofs.«161391_j14053132992699_1_alg».proof.Proof.Gen.Kernel.Frame
import proofs.«161391_j14053132992699_1_alg».proof.Proof.Gen.KernelIdeal
import proofs.«161391_j14053132992699_1_alg».proof.Proof.Gen.KernelIdeal.Skeleton
import proofs.«161391_j14053132992699_1_alg».proof.Proof.Gen.KernelIdeal.Launch
import proofs.«161391_j14053132992699_1_alg».proof.Proof.Gen.KernelIdeal.Points
import proofs.«161391_j14053132992699_1_alg».proof.Proof.Gen.KernelIdeal.Frame
import proofs.«161391_j14053132992699_1_alg».proof.Proof.Gen.ReferenceIdeal
import proofs.«161391_j14053132992699_1_alg».proof.Proof.Gen.Pre_finite_inputs
import proofs.«161391_j14053132992699_1_alg».proof.Proof.Gen.KernelIdeal.Value
import proofs.«161391_j14053132992699_1_alg».proof.Proof.Gen.ReferenceIdeal.Run
import proofs.«161391_j14053132992699_1_alg».proof.Proof.Gen.ReferenceIdeal.Read
import proofs.«161391_j14053132992699_1_alg».proof.Proof.RowBlocks
import proofs.«161391_j14053132992699_1_alg».proof.Proof.RefIsRowMlp
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The neighbour sums are one term: the kernel's host prefix and the reference's are the same gather and the
    same scatter-add of the same arguments. -/
theorem neigh_same (x0 : FVec Ideal Cert.KernelIdeal.S100000x64 .f32) (x5 x6 : IVec Cert.KernelIdeal.S1600000 32) :
    Cert.ReferenceIdeal.Read.val_main_v9 (F := Ideal) x0 x5 x6 = Cert.KernelIdeal.ArrayValue.neigh x0 x5 x6 := rfl

/-- From memories that agree on the arguments both programs end with the result array at the row perceptron of
    the arguments and the neighbour sums: the kernel block by block, the reference in one piece. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v21_eq, Cert.ReferenceIdeal.RefValue.result_eq, neigh_same,
    a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
